-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S480000x16 : S_.BroadcastsInDim S480000x16 (![] : Fin 0 → Fin S480000x16.rank)
  reducesTo_S480000x16_S_d0_1 : S480000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x2 .f32) (main_arg12 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_v48 main_v49 main_v50

def fn_part1 {F : FTy → Type} [FloatOps F] (main_arg5 : FVec F S128x128 .f32) (main_arg6 : FVec F S128 .f32) (main_arg7 : FVec F S144x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S144x128 .f32 := Host.absf main_arg7
  let main_cst_10 : FVec F S_ .f32 := constant S_ .f32 0x7F800000#32
  let main_v30 : FVec F S144x128 .f32 := broadcastInDim S144x128 ![] bcast_S_S144x128 main_cst_10
  let main_v31 : IVec S144x128 1 := cmpf .olt main_v29 main_v30
  let main_c_11 : IVec S_ 1 := constantI S_ 1 1#1
  let main_v32 : IVec S_ 1 := (fun x v => Host.reduce IntOp.andi x v reducesTo_S144x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S30000x128 .f32) (main_arg1 : IVec S2x480000 32) (main_arg2 : FVec F S480000x16 .f32) (main_arg3 : FVec F S144x128 .f32) (main_arg4 : FVec F S128 .f32) (main_arg5 : FVec F S128x128 .f32) (main_arg6 : FVec F S128 .f32) (main_arg7 : FVec F S144x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S480000x16 .f32 := Host.absf main_arg2
  let main_cst_0 : FVec F S_ .f32 := constant S_ .f32 0x7F800000#32
  let main_v5 : FVec F S480000x16 .f32 := broadcastInDim S480000x16 ![] bcast_S_S480000x16 main_cst_0
  let main_v6 : IVec S480000x16 1 := cmpf .olt main_v4 main_v5
  let main_c_1 : IVec S_ 1 := constantI S_ 1 1#1
  let main_v7 : IVec S_ 1 := (fun x v => Host.reduce IntOp.andi x v reducesTo_S480000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x480000 : Shape := ⟨2, ![1, 480000]⟩
abbrev S480000 : Shape := ⟨1, ![480000]⟩
abbrev S_ : Shape := ⟨0, ![]⟩
abbrev S480000x1 : Shape := ⟨2, ![480000, 1]⟩
abbrev S480000x128 : Shape := ⟨2, ![480000, 128]⟩
abbrev S16x128 : Shape := ⟨2, ![16, 128]⟩
abbrev S1x128 : Shape := ⟨2, ![1, 128]⟩
abbrev S4000x128 : Shape := ⟨2, ![4000, 128]⟩
abbrev S4000x16 : Shape := ⟨2, ![4000, 16]⟩
abbrev S1x2 : Shape := ⟨2, ![1, 2]⟩

abbrev nBuf : Space → Nat
  | .hbm => 70
  | .vmem => 22
  | .smem => 0
  | _ => 0

abbrev bufTy : (tb : Table) → Fin (tcTables nBuf tb) → BufTy
  | .hbm, ⟨0, _⟩ => ⟨S30000x128, .f32⟩
  | .hbm, ⟨1, _⟩ => ⟨S2x480000, .i32⟩
  | .hbm, ⟨2, _⟩ => ⟨S480000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S144x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x480000, .i32⟩
  | .hbm, ⟨14, _⟩ => ⟨S480000, .i32⟩
  | .hbm, ⟨15, _⟩ => ⟨S1x480000, .i32⟩
  | .hbm, ⟨16, _⟩ => ⟨S480000, .i32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x128, .f32⟩
  | .hbm, ⟨26, _⟩ => ⟨S128x128, .f32⟩
  | .hbm, ⟨27, _⟩ => ⟨S16x128, .f32⟩
  | .hbm, ⟨28, _⟩ => ⟨S1x128, .f32⟩
  | .hbm, ⟨29, _⟩ => ⟨S1x128, .f32⟩
  | .hbm, ⟨30, _⟩ => ⟨S480000x128, .f32⟩
  | .hbm, ⟨31, _⟩ => ⟨S_, .f32⟩
  | .hbm, ⟨32, _⟩ => ⟨S30000x128, .f32⟩
  | .hbm, ⟨33, _⟩ => ⟨S480000x1, .i32⟩
  | .hbm, ⟨34, _⟩ => ⟨S30000x128, .f32⟩
  | .hbm, ⟨35, _⟩ => ⟨S30000x128, .f32⟩
  | .hbm, ⟨36, _⟩ => ⟨S_, .f32⟩
  | .hbm, ⟨37, _⟩ => ⟨S30000x128, .f32⟩
  | .hbm, ⟨38, _⟩ => ⟨S30000x128, .f32⟩
  | .hbm, ⟨39, _⟩ => ⟨S_, .i32⟩
  | .hbm, ⟨40, _⟩ => ⟨S480000, .i32⟩
  | .hbm, ⟨41, _⟩ => ⟨S480000, .i1⟩
  | .hbm, ⟨42, _⟩ => ⟨S_, .i32⟩
  | .hbm, ⟨43, _⟩ => ⟨S480000, .i32⟩
  | .hbm, ⟨44, _⟩ => ⟨S480000, .i32⟩
  | .hbm, ⟨45, _⟩ => ⟨S480000, .i32⟩
  | .hbm, ⟨46, _⟩ => ⟨S480000x1, .i32⟩
  | .hbm, ⟨47, _⟩ => ⟨S480000x128, .f32⟩
  | .hbm, ⟨48, _⟩ => ⟨S128x128, .f32⟩
  | .hbm, ⟨49, _⟩ => ⟨S16x128, .f32⟩
  | .hbm, ⟨50, _⟩ => ⟨S1x128, .f32⟩
  | .hbm, ⟨51, _⟩ => ⟨S1x128, .f32⟩
  | .hbm, ⟨52, _⟩ => ⟨S480000x128, .f32⟩
  | .hbm, ⟨53, _⟩ => ⟨S_, .f32⟩
  | .hbm, ⟨54, _⟩ => ⟨S30000x128, .f32⟩
  | .hbm, ⟨55, _⟩ => ⟨S480000x1, .i32⟩
  | .hbm, ⟨56, _⟩ => ⟨S30000x128, .f32⟩
  | .hbm, ⟨57, _⟩ => ⟨S30000x128, .f32⟩
  | .hbm, ⟨58, _⟩ => ⟨S_, .f32⟩
  | .hbm, ⟨59, _⟩ => ⟨S30000x128, .f32⟩
  | .hbm, ⟨60, _⟩ => ⟨S30000x128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x2, .f32⟩
  | .hbm, ⟨68, _⟩ => ⟨S1x2, .f32⟩
  | .hbm, ⟨69, _⟩ => ⟨S1x2, .f32⟩
  | .local _ .vmem, ⟨0, _⟩ => ⟨S4000x128, .f32⟩
  | .local _ .vmem, ⟨1, _⟩ => ⟨S4000x128, .f32⟩
  | .local _ .vmem, ⟨2, _⟩ => ⟨S4000x16, .f32⟩
  | .local _ .vmem, ⟨3, _⟩ => ⟨S4000x16, .f32⟩
  | .local _ .vmem, ⟨4, _⟩ => ⟨S128x128, .f32⟩
  | .local _ .vmem, ⟨5, _⟩ => ⟨S16x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x16, .f32⟩
  | .local _ .vmem, ⟨14, _⟩ => ⟨S4000x16, .f32⟩
  | .local _ .vmem, ⟨15, _⟩ => ⟨S128x128, .f32⟩
  | .local _ .vmem, ⟨16, _⟩ => ⟨S16x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![120], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  slices_S144x128_S128x128_0_0 : S144x128.Slices ![0, 0] S128x128
  slices_S144x128_S16x128_128_0 : S144x128.Slices ![128, 0] S16x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S30000x128 : S_.BroadcastsInDim S30000x128 (![] : Fin 0 → Fin S30000x128.rank)
  reducesTo_S30000x128_S128_d0 : S30000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S2_S1x2_1 : S2.BroadcastsInDim S1x2 (![1] : Fin 1 → Fin S1x2.rank)
  gather_S30000x128_S480000x1_S480000x128_1_0_n_n_0_1_1128_wf : GatherDims.WF S30000x128 S480000x1 S480000x128 [1] [0] [] [0] [] 1 ![1, 128]
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  scatter_S30000x128_S480000x1_S480000x128_1_0_0_1_wf : ScatterDims.WF S30000x128 S480000x1 S480000x128 [1] [0] [0] 1
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S480000x128.size a
  hwx0_0 : ∀ i : grid0.Coords, EltTy.bits .f32 = 32 ∨ (Rect.block (s := S480000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S480000x16.size a
  hwx0_1 : ∀ i : grid0.Coords, EltTy.bits .f32 = 32 ∨ (Rect.block (s := S480000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S480000x128.size a
  hwx0_7 : ∀ i : grid0.Coords, EltTy.bits .f32 = 32 ∨ (Rect.block (s := S480000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S480000x128.size a
  hwx1_0 : ∀ i : grid1.Coords, EltTy.bits .f32 = 32 ∨ (Rect.block (s := S480000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S480000x16.size a
  hwx1_1 : ∀ i : grid1.Coords, EltTy.bits .f32 = 32 ∨ (Rect.block (s := S480000x16) S4000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S480000x128.size a
  hwx1_7 : ∀ i : grid1.Coords, EltTy.bits .f32 = 32 ∨ (Rect.block (s := S480000x128) S4000x128.size (cc1_transform_7 i) (hinb1_7 i)).WholeWords (EltTy.packing .f32)

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x480000 : Shape := ⟨2, ![1, 480000]⟩
abbrev S480000 : Shape := ⟨1, ![480000]⟩
abbrev S_ : Shape := ⟨0, ![]⟩
abbrev S480000x1 : Shape := ⟨2, ![480000, 1]⟩
abbrev S480000x128 : Shape := ⟨2, ![480000, 128]⟩
abbrev S480000x144 : Shape := ⟨2, ![480000, 144]⟩
abbrev S1x128 : Shape := ⟨2, ![1, 128]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S30000x128, .f32⟩
  | .hbm, ⟨1, _⟩ => ⟨S2x480000, .i32⟩
  | .hbm, ⟨2, _⟩ => ⟨S480000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S144x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x480000, .i32⟩
  | .hbm, ⟨14, _⟩ => ⟨S480000, .i32⟩
  | .hbm, ⟨15, _⟩ => ⟨S1x480000, .i32⟩
  | .hbm, ⟨16, _⟩ => ⟨S480000, .i32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x128, .f32⟩
  | .hbm, ⟨26, _⟩ => ⟨S480000x144, .f32⟩
  | .hbm, ⟨27, _⟩ => ⟨S480000x128, .f32⟩
  | .hbm, ⟨28, _⟩ => ⟨S1x128, .f32⟩
  | .hbm, ⟨29, _⟩ => ⟨S480000x128, .f32⟩
  | .hbm, ⟨30, _⟩ => ⟨S480000x128, .f32⟩
  | .hbm, ⟨31, _⟩ => ⟨S_, .f32⟩
  | .hbm, ⟨32, _⟩ => ⟨S480000x128, .f32⟩
  | .hbm, ⟨33, _⟩ => ⟨S480000x128, .f32⟩
  | .hbm, ⟨34, _⟩ => ⟨S480000x128, .f32⟩
  | .hbm, ⟨35, _⟩ => ⟨S1x128, .f32⟩
  | .hbm, ⟨36, _⟩ => ⟨S480000x128, .f32⟩
  | .hbm, ⟨37, _⟩ => ⟨S480000x128, .f32⟩
  | .hbm, ⟨38, _⟩ => ⟨S_, .f32⟩
  | .hbm, ⟨39, _⟩ => ⟨S30000x128, .f32⟩
  | .hbm, ⟨40, _⟩ => ⟨S480000x1, .i32⟩
  | .hbm, ⟨41, _⟩ => ⟨S30000x128, .f32⟩
  | .hbm, ⟨42, _⟩ => ⟨S30000x128, .f32⟩
  | .hbm, ⟨43, _⟩ => ⟨S_, .f32⟩
  | .hbm, ⟨44, _⟩ => ⟨S30000x128, .f32⟩
  | .hbm, ⟨45, _⟩ => ⟨S30000x128, .f32⟩
  | .hbm, ⟨46, _⟩ => ⟨S_, .i32⟩
  | .hbm, ⟨47, _⟩ => ⟨S480000, .i32⟩
  | .hbm, ⟨48, _⟩ => ⟨S480000, .i1⟩
  | .hbm, ⟨49, _⟩ => ⟨S_, .i32⟩
  | .hbm, ⟨50, _⟩ => ⟨S480000, .i32⟩
  | .hbm, ⟨51, _⟩ => ⟨S480000, .i32⟩
  | .hbm, ⟨52, _⟩ => ⟨S480000, .i32⟩
  | .hbm, ⟨53, _⟩ => ⟨S480000x1, .i32⟩
  | .hbm, ⟨54, _⟩ => ⟨S480000x128, .f32⟩
  | .hbm, ⟨55, _⟩ => ⟨S480000x144, .f32⟩
  | .hbm, ⟨56, _⟩ => ⟨S480000x128, .f32⟩
  | .hbm, ⟨57, _⟩ => ⟨S1x128, .f32⟩
  | .hbm, ⟨58, _⟩ => ⟨S480000x128, .f32⟩
  | .hbm, ⟨59, _⟩ => ⟨S480000x128, .f32⟩
  | .hbm, ⟨60, _⟩ => ⟨S_, .f32⟩
  | .hbm, ⟨61, _⟩ => ⟨S480000x128, .f32⟩
  | .hbm, ⟨62, _⟩ => ⟨S480000x128, .f32⟩
  | .hbm, ⟨63, _⟩ => ⟨S480000x128, .f32⟩
  | .hbm, ⟨64, _⟩ => ⟨S1x128, .f32⟩
  | .hbm, ⟨65, _⟩ => ⟨S480000x128, .f32⟩
  | .hbm, ⟨66, _⟩ => ⟨S480000x128, .f32⟩
  | .hbm, ⟨67, _⟩ => ⟨S_, .f32⟩
  | .hbm, ⟨68, _⟩ => ⟨S30000x128, .f32⟩
  | .hbm, ⟨69, _⟩ => ⟨S480000x1, .i32⟩
  | .hbm, ⟨70, _⟩ => ⟨S30000x128, .f32⟩
  | .hbm, ⟨71, _⟩ => ⟨S30000x128, .f32⟩
  | .hbm, ⟨72, _⟩ => ⟨S_, .f32⟩
  | .hbm, ⟨73, _⟩ => ⟨S30000x128, .f32⟩
  | .hbm, ⟨74, _⟩ => ⟨S30000x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x2, .f32⟩
  | .hbm, ⟨82, _⟩ => ⟨S1x2, .f32⟩
  | .hbm, ⟨83, _⟩ => ⟨S1x2, .f32⟩
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x16_S480000x144_d1 : Shape.Concatenates [S480000x128, S480000x16] S480000x144 1
  bcast_S128_S1x128_1 : S128.BroadcastsInDim S1x128 (![1] : Fin 1 → Fin S1x128.rank)
  bcast_S1x128_S480000x128_0_1 : S1x128.BroadcastsInDim S480000x128 (![0, 1] : Fin 2 → Fin S480000x128.rank)
  bcast_S_S480000x128 : S_.BroadcastsInDim S480000x128 (![] : Fin 0 → Fin S480000x128.rank)
  bcast_S_S30000x128 : S_.BroadcastsInDim S30000x128 (![] : Fin 0 → Fin S30000x128.rank)
  reducesTo_S30000x128_S128_d0 : S30000x128.ReducesTo [0] S128
  h_S_ : 0 < S_.numel
  bcast_S_S1x128 : S_.BroadcastsInDim S1x128 (![] : Fin 0 → Fin S1x128.rank)
  bcast_S2_S1x2_1 : S2.BroadcastsInDim S1x2 (![1] : Fin 1 → Fin S1x2.rank)
  gather_S30000x128_S480000x1_S480000x128_1_0_n_n_0_1_1128_wf : GatherDims.WF S30000x128 S480000x1 S480000x128 [1] [0] [] [0] [] 1 ![1, 128]
  dot_S480000x144_S144x128_S480000x128_1_0_0_1_n_n_wf : DotDims.WF S480000x144 S144x128 S480000x128 [1] [0] [0] [1] [] []
  dot_S480000x128_S128x128_S480000x128_1_0_0_1_n_n_wf : DotDims.WF S480000x128 S128x128 S480000x128 [1] [0] [0] [1] [] []
  scatter_S30000x128_S480000x1_S480000x128_1_0_0_1_wf : ScatterDims.WF S30000x128 S480000x1 S480000x128 [1] [0] [0] 1
  dot_S1x128_S128x2_S1x2_1_0_0_1_n_n_wf : DotDims.WF S1x128 S128x2 S1x2 [1] [0] [0] [1] [] []

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S480000x144_S144x128_S480000x128_1_0_0_1_n_n : DotDims S480000x144 S144x128 S480000x128 where
  lhsContracting := [1]
  rhsContracting := [0]
  lhsNonContracting := [0]
  rhsNonContracting := [1]
  lhsBatch := []
  rhsBatch := []
  wf := dot_S480000x144_S144x128_S480000x128_1_0_0_1_n_n_wf
def dot_S480000x128_S128x128_S480000x128_1_0_0_1_n_n : DotDims S480000x128 S128x128 S480000x128 where
  lhsContracting := [1]
  rhsContracting := [0]
  lhsNonContracting := [0]
  rhsNonContracting := [1]
  lhsBatch := []
  rhsBatch := []
  wf := dot_S480000x128_S128x128_S480000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.EdgeMlp.lean ====
/-
  One entry of the two-layer edge perceptron, and the kernel body's stored value read at that entry.

  For an edge with feature row `x` (128 numbers) and attribute row `e` (16 numbers) the hidden unit `k` is
  `max (Σ_a x a · W1x[a,k] + Σ_a e a · W1e[a,k] + b1[k]) 0` and output `q` is `Σ_k hidden k · W2[k,q] + b2[q]`,
  all on the extended reals. The body computes exactly this for each of the 4000 rows of its block: both
  matrix products start from a zero accumulator, so each is a plain sum over the contracted axis; the
  changes of float format are the identity; the bias row is broadcast down the rows.
-/
import proofs.«146705_j37598143709437_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.EdgeMlp

open Idealize.ShloMosaic Idealize.ShloMosaic.TcCoe Cert.KernelIdeal Cert.KernelIdeal.Gen
open Idealize.ShloMosaic.ValueIdx

/-- Hidden unit `k` of one edge: the rectified affine form of its feature row and attribute row. -/
def hidden (x : Fin 128 → EReal) (e : Fin 16 → EReal) (w1x : S128x128.Idx → EReal) (w1e : S16x128.Idx → EReal)
    (b1 : S1x128.Idx → EReal) (k : Fin 128) : EReal :=
  max (((∑ a : Fin 128, x a * w1x (ix2 a k)) + (∑ a : Fin 16, e a * w1e (ix2 a k))) + b1 (ix2 0 k)) 0

/-- Output `q` of one edge: the affine form of its hidden units. -/
def entry (x : Fin 128 → EReal) (e : Fin 16 → EReal) (w1x : S128x128.Idx → EReal) (w1e : S16x128.Idx → EReal)
    (b1 : S1x128.Idx → EReal) (w2 : S128x128.Idx → EReal) (b2 : S1x128.Idx → EReal) (q : Fin 128) : EReal :=
  (∑ k : Fin 128, hidden x e w1x w1e b1 k * w2 (ix2 k q)) + b2 (ix2 0 q)

/-- An edge's output depends only on its two rows' entries and on the output's number. -/
theorem entry_congr {x x' : Fin 128 → EReal} {e e' : Fin 16 → EReal} (w1x : S128x128.Idx → EReal) (w1e : S16x128.Idx → EReal)
    (b1 : S1x128.Idx → EReal) (w2 : S128x128.Idx → EReal) (b2 : S1x128.Idx → EReal) {q q' : Fin 128}
    (hx : ∀ a, x a = x' a) (he : ∀ a, e a = e' a) (hq : q = q') :
    entry x e w1x w1e b1 w2 b2 q = entry x' e' w1x w1e b1 w2 b2 q' := by
  rw [funext hx, funext he, hq]

/-! ## The two products of the body, each read at an entry as a sum over its contracted axis -/

theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] × [128,128] product from the zero accumulator, at row `p` and column `q`. -/
theorem mm128_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs16_0 (i : S4000x128.Idx) (q : dot_S4000x16_S16x128_S4000x128_1_0_0_1_n_n.contr.Idx) :
    (dot_S4000x16_S16x128_S4000x128_1_0_0_1_n_n.lhsIdx i q 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
theorem lhs16_1 (i : S4000x128.Idx) (q : dot_S4000x16_S16x128_S4000x128_1_0_0_1_n_n.contr.Idx) :
    (dot_S4000x16_S16x128_S4000x128_1_0_0_1_n_n.lhsIdx i q 1).val = (q ⟨0, by decide⟩).val :=
  dot_S4000x16_S16x128_S4000x128_1_0_0_1_n_n.lhsIdx_val_of_single rfl i q
theorem rhs16_0 (i : S4000x128.Idx) (q : dot_S4000x16_S16x128_S4000x128_1_0_0_1_n_n.contr.Idx) :
    (dot_S4000x16_S16x128_S4000x128_1_0_0_1_n_n.rhsIdx i q 0).val = (q ⟨0, by decide⟩).val :=
  dot_S4000x16_S16x128_S4000x128_1_0_0_1_n_n.rhsIdx_val_of_single rfl i q
theorem rhs16_1 (i : S4000x128.Idx) (q : dot_S4000x16_S16x128_S4000x128_1_0_0_1_n_n.contr.Idx) :
    (dot_S4000x16_S16x128_S4000x128_1_0_0_1_n_n.rhsIdx i q 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- A [4000,16] × [16,128] product from the zero accumulator, at row `p` and column `q`. -/
theorem mm16_apply {φ₁ φ₂ : FTy} (l : FVec Ideal S4000x16 φ₁) (r : FVec Ideal S16x128 φ₂) (p : Fin 4000) (q : Fin 128) :
    matmul dot_S4000x16_S16x128_S4000x128_1_0_0_1_n_n none l r (constant (F := Ideal) S4000x128 .f32 0x00000000#32) (ix2 p q)
      = ∑ k : Fin 16, l (ix2 p k) * r (ix2 k q) := by
  simp only [matmul]
  rw [Ideal.matmul_constant_zero_apply, ← Equiv.sum_comp (ValueIdx.contrEquiv1 dot_S4000x16_S16x128_S4000x128_1_0_0_1_n_n 16 rfl rfl).symm]
  refine Finset.sum_congr rfl fun k _ => ?_
  have hk := ValueIdx.contrEquiv1_symm_val dot_S4000x16_S16x128_S4000x128_1_0_0_1_n_n 16 rfl rfl k
  have el : dot_S4000x16_S16x128_S4000x128_1_0_0_1_n_n.lhsIdx (ix2 p q) ((ValueIdx.contrEquiv1 dot_S4000x16_S16x128_S4000x128_1_0_0_1_n_n 16 rfl rfl).symm k) = ix2 p k := funext fun a => Fin.ext (by
    match a with
    | ⟨0, _⟩ => exact lhs16_0 _ _
    | ⟨1, _⟩ => exact (lhs16_1 _ _).trans hk)
  have er : dot_S4000x16_S16x128_S4000x128_1_0_0_1_n_n.rhsIdx (ix2 p q) ((ValueIdx.contrEquiv1 dot_S4000x16_S16x128_S4000x128_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-- The bias row [1,128] broadcast down 4000 rows, at row `p` and column `q`, is its entry `q`. -/
theorem bias_apply (b : Vec Ideal S1x128 .f32) (p : Fin 4000) (q : Fin 128) :
    broadcastTo S4000x128 (shapeCast S1x128 b shapeCasts_S1x128_S1x128) broadcasts_S1x128_S4000x128 (ix2 p q) = b (ix2 0 q) := by
  rw [shapeCast_self]
  exact broadcastTo_apply b broadcasts_S1x128_S4000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The stored value at an entry -/

/-- What the body stores, at row `p` and column `q` of its block, is output `q` of the edge whose feature row is
    row `p` of the first block and whose attribute row is row `p` of the second. -/
theorem pay_apply0 (v0 : Vec Ideal S4000x128 .f32) (v3 : Vec Ideal S4000x16 .f32) (v5 : Vec Ideal S128x128 .f32)
    (v8 : Vec Ideal S16x128 .f32) (v14 : Vec Ideal S1x128 .f32) (v21 : Vec Ideal S128x128 .f32) (v24 : Vec Ideal S1x128 .f32)
    (p : Fin 4000) (q : Fin 128) :
    k0_pay1 (F := Ideal) v0 v3 v5 v8 v14 v21 v24 (ix2 p q)
      = entry (fun a => v0 (ix2 p a)) (fun a => v3 (ix2 p a)) v5 v8 v14 v21 v24 q := by
  unfold k0_pay1 entry hidden
  dsimp only
  rw [addf_apply, mm128_apply, bias_apply]
  refine congrArg (· + v24 (ix2 0 q)) (Finset.sum_congr rfl fun k _ => ?_)
  rw [truncf_apply, truncf_apply, maximumf_apply, addf_apply, addf_apply, mm128_apply, mm16_apply, bias_apply, broadcast_apply]
  simp only [truncf_apply, shapeCast_self, Ideal.ofBits_def, Ideal.ofBits_zero_f32]

/-- The second launch's body stores the same function of its loads as the first's. -/
theorem pay1_eq (v0 : Vec Ideal S4000x128 .f32) (v3 : Vec Ideal S4000x16 .f32) (v5 : Vec Ideal S128x128 .f32)
    (v8 : Vec Ideal S16x128 .f32) (v14 : Vec Ideal S1x128 .f32) (v21 : Vec Ideal S128x128 .f32) (v24 : Vec Ideal S1x128 .f32) :
    k1_pay1 (F := Ideal) v0 v3 v5 v8 v14 v21 v24 = k0_pay1 (F := Ideal) v0 v3 v5 v8 v14 v21 v24 := rfl

/-- The same reading for the second launch's body. -/
theorem pay_apply1 (v0 : Vec Ideal S4000x128 .f32) (v3 : Vec Ideal S4000x16 .f32) (v5 : Vec Ideal S128x128 .f32)
    (v8 : Vec Ideal S16x128 .f32) (v14 : Vec Ideal S1x128 .f32) (v21 : Vec Ideal S128x128 .f32) (v24 : Vec Ideal S1x128 .f32)
    (p : Fin 4000) (q : Fin 128) :
    k1_pay1 (F := Ideal) v0 v3 v5 v8 v14 v21 v24 (ix2 p q)
      = entry (fun a => v0 (ix2 p a)) (fun a => v3 (ix2 p a)) v5 v8 v14 v21 v24 q :=
  (congrFun (pay1_eq v0 v3 v5 v8 v14 v21 v24) (ix2 p q)).trans (pay_apply0 v0 v3 v5 v8 v14 v21 v24 p q)

/-! ## The perceptron over all the edges -/

/-- Entry (r, q) is output `q` of the edge whose feature row and attribute row are row `r` of the two arrays. -/
def mlp (xj : S480000x128.Idx → EReal) (ea : S480000x16.Idx → EReal) (w1x : S128x128.Idx → EReal)
    (w1e : S16x128.Idx → EReal) (b1 : S1x128.Idx → EReal) (w2 : S128x128.Idx → EReal) (b2 : S1x128.Idx → EReal) :
    S480000x128.Idx → EReal := fun i =>
  entry (fun a => xj (ix2 (⟨(i 0).val, (i 0).isLt⟩ : Fin 480000) a))
    (fun a => ea (ix2 (⟨(i 0).val, (i 0).isLt⟩ : Fin 480000) a)) w1x w1e b1 w2 b2 ⟨(i 1).val, (i 1).isLt⟩

end Cert.KernelIdeal.EdgeMlp

end
-- ==== Proof.Region0.lean ====
/-
  One launch's result array as ONE function of the arrays the launch reads.

  The launch walks 120 blocks of 4000 edges. At block `t` the body sees rows `4000·t … 4000·t + 3999` of the
  gathered features and of the edge attributes, and the whole of the five parameter arrays; it writes rows
  `4000·t …` of the result. So the result array, after the last write-back, holds at row `r` and column `q` output
  `q` of edge `r`: the blocks tile the rows, and row `r` lies in block `r / 4000`.
-/
import proofs.«146705_j37598143709437_1_alg».proof.Proof.Gen.KernelIdeal.Frame
import proofs.«146705_j37598143709437_1_alg».proof.Proof.EdgeMlp

set_option maxRecDepth 16384

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two streamed inputs and the output sit at block row `t`, block
    column 0; the five parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 120 := lt_of_lt_of_eq t.isLt N_0

/-- Row `p` of the feature block at point `t` is row `4000·t + p` of the gathered features. -/
theorem blk_x (c : Dev nD) (t : Fin cfg0.N) (p : Fin 4000) (a : Fin 128) (r : Fin 480000) (hr : r.val = t.val * 4000 + p.val) :
    iblk0 V c 0 t (ix2 p a) = V c main_v10 (ix2 r a) := by
  show V c main_v10 (((cfg0.win 0).blk t).view.emb (ix2 p a)) = V c main_v10 (ix2 r a)
  refine congrArg _ (funext fun d => Fin.ext ?_)
  obtain ⟨e0, e1, -⟩ := idx_facts t
  match d with
  | ⟨0, _⟩ => show win0_0.index t (0 : Fin 2) * 4000 + 1 * p.val = r.val; omega
  | ⟨1, _⟩ => show win0_0.index t (1 : Fin 2) * 128 + 1 * a.val = a.val; omega

/-- Row `p` of the attribute block at point `t` is row `4000·t + p` of the edge attributes. -/
theorem blk_e (c : Dev nD) (t : Fin cfg0.N) (p : Fin 4000) (a : Fin 16) (r : Fin 480000) (hr : r.val = t.val * 4000 + p.val) :
    iblk0 V c 1 t (ix2 p a) = V c main_arg2 (ix2 r a) := by
  show V c main_arg2 (((cfg0.win 1).blk t).view.emb (ix2 p a)) = V c main_arg2 (ix2 r a)
  refine congrArg _ (funext fun d => Fin.ext ?_)
  obtain ⟨-, -, e0, e1, -⟩ := idx_facts t
  match d with
  | ⟨0, _⟩ => show win0_1.index t (0 : Fin 2) * 4000 + 1 * p.val = r.val; omega
  | ⟨1, _⟩ => show win0_1.index t (1 : Fin 2) * 16 + 1 * a.val = a.val; omega

/-- Each parameter window's one block is its whole array, at every point. -/
theorem blk_w1x (c : Dev nD) (t : Fin cfg0.N) : iblk0 V c 2 t = V c main_v11 := by
  funext y
  show V c main_v11 (((cfg0.win 2).blk t).view.emb y) = V c main_v11 y
  refine congrArg _ (funext fun d => Fin.ext ?_)
  obtain ⟨-, -, -, -, e0, e1, -⟩ := idx_facts t
  match d with
  | ⟨0, _⟩ => show win0_2.index t (0 : Fin 2) * 128 + 1 * (y 0).val = (y 0).val; omega
  | ⟨1, _⟩ => show win0_2.index t (1 : Fin 2) * 128 + 1 * (y 1).val = (y 1).val; omega
theorem blk_w1e (c : Dev nD) (t : Fin cfg0.N) : iblk0 V c 3 t = V c main_v12 := by
  funext y
  show V c main_v12 (((cfg0.win 3).blk t).view.emb y) = V c main_v12 y
  refine congrArg _ (funext fun d => Fin.ext ?_)
  obtain ⟨-, -, -, -, -, -, e0, e1, -⟩ := idx_facts t
  match d with
  | ⟨0, _⟩ => show win0_3.index t (0 : Fin 2) * 16 + 1 * (y 0).val = (y 0).val; omega
  | ⟨1, _⟩ => show win0_3.index t (1 : Fin 2) * 128 + 1 * (y 1).val = (y 1).val; omega
theorem blk_b1 (c : Dev nD) (t : Fin cfg0.N) : iblk0 V c 4 t = V c main_v13 := by
  funext y
  show V c main_v13 (((cfg0.win 4).blk t).view.emb y) = V c main_v13 y
  refine congrArg _ (funext fun d => Fin.ext ?_)
  obtain ⟨-, -, -, -, -, -, -, -, e0, e1, -⟩ := idx_facts t
  match d with
  | ⟨0, _⟩ => show win0_4.index t (0 : Fin 2) * 1 + 1 * (y 0).val = (y 0).val; omega
  | ⟨1, _⟩ => show win0_4.index t (1 : Fin 2) * 128 + 1 * (y 1).val = (y 1).val; omega
theorem blk_w2 (c : Dev nD) (t : Fin cfg0.N) : iblk0 V c 5 t = V c main_arg5 := by
  funext y
  show V c main_arg5 (((cfg0.win 5).blk t).view.emb y) = V c main_arg5 y
  refine congrArg _ (funext fun d => Fin.ext ?_)
  obtain ⟨-, -, -, -, -, -, -, -, -, -, e0, e1, -⟩ := idx_facts t
  match d with
  | ⟨0, _⟩ => show win0_5.index t (0 : Fin 2) * 128 + 1 * (y 0).val = (y 0).val; omega
  | ⟨1, _⟩ => show win0_5.index t (1 : Fin 2) * 128 + 1 * (y 1).val = (y 1).val; omega
theorem blk_b2 (c : Dev nD) (t : Fin cfg0.N) : iblk0 V c 6 t = V c main_v14 := by
  funext y
  show V c main_v14 (((cfg0.win 6).blk t).view.emb y) = V c main_v14 y
  refine congrArg _ (funext fun d => Fin.ext ?_)
  obtain ⟨-, -, -, -, -, -, -, -, -, -, -, -, e0, e1, -⟩ := idx_facts t
  match d with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT `t` WRITES BACK is block `t` of the perceptron of the arrays as the launch finds them. -/
theorem flushed_eq (c : Dev nD) (t : Fin cfg0.N) :
    (dat0 V c).flushed 7 t = ((cfg0.win 7).blk t).view.read (Elt Ideal)
      (EdgeMlp.mlp (V c main_v10) (V c main_arg2) (V c main_v11) (V c main_v12) (V c main_v13) (V c main_arg5) (V c main_v14)) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x16) hz, View.ld_unit_zero (S := S128x128) hz,
    View.ld_unit_zero (S := S16x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = EdgeMlp.mlp (V c main_v10) (V c main_arg2) (V c main_v11) (V c main_v12) (V c main_v13) (V c main_arg5) (V c main_v14)
        (((cfg0.win 7).blk t).view.emb (ix2 p q))
  refine (EdgeMlp.pay_apply0 _ _ _ _ _ _ _ p q).trans ?_
  rw [blk_w1x V c t, blk_w1e V c t, blk_b1 V c t, blk_w2 V c t, blk_b2 V c t]
  obtain ⟨-, -, -, -, -, -, -, -, -, -, -, -, -, -, e0, e1⟩ := idx_facts t
  have ht := t_lt t
  have h0 : ((((cfg0.win 7).blk t).view.emb (ix2 p q)) 0).val = t.val * 4000 + p.val := by
    show win0_7.index t (0 : Fin 2) * 4000 + 1 * p.val = _; omega
  have h1 : ((((cfg0.win 7).blk t).view.emb (ix2 p q)) 1).val = q.val := by
    show win0_7.index t (1 : Fin 2) * 128 + 1 * q.val = _; omega
  unfold EdgeMlp.mlp
  exact EdgeMlp.entry_congr _ _ _ _ _ (fun a => blk_x V c t p a _ h0) (fun a => blk_e V c t p a _ h0) (Fin.ext h1.symm)

/-- An index of the result array is in point `t`'s block iff each coordinate is in the block's range on its axis. -/
theorem mem_blk (t : Fin cfg0.N) (i : S480000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v15).slice (win0_7.rect t)).set ↔ _
  rw [View.set_slice_whole, Rect.mem_set_unit]
  exact Iff.rfl

/-- The blocks tile the result array: row `r` lies in the block of point `r / 4000`. -/
theorem cover (i : S480000x128.Idx) : ∃ t : Fin cfg0.N, (cfg0.win 7).flush t = true ∧ i ∈ ((cfg0.win 7).blk t).view.set := by
  have hi0 : (i 0).val < 480000 := (i 0).isLt
  have hi1 : (i 1).val < 128 := (i 1).isLt
  let t : Fin cfg0.N := ⟨(i 0).val / 4000, lt_of_lt_of_eq (by omega : (i 0).val / 4000 < 120) N_0.symm⟩
  refine ⟨t, flush0_7 t, ?_⟩
  rw [mem_blk]
  obtain ⟨-, -, -, -, -, -, -, -, -, -, -, -, -, -, e0, e1⟩ := idx_facts t
  have et : t.val = (i 0).val / 4000 := rfl
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE RESULT ARRAY after the launch: the perceptron of the arrays as the launch finds them. -/
theorem final (c : Dev nD) : (dat0 V c).arrAt 7 cfg0.N
    = EdgeMlp.mlp (V c main_v10) (V c main_arg2) (V c main_v11) (V c main_v12) (V c main_v13) (V c main_arg5) (V c main_v14) :=
  (dat0 V c).arrAt_eq_of_cover 7 _ (fun t _ => flushed_eq V c t) cover

end Cert.KernelIdeal.Region0

end
-- ==== Proof.HostOps.lean ====
/-
  The host operations the kernel's program applies around its two launches, as named functions of arrays: the rows
  of the edge list, the gather of source-node rows, the two parts of a first-layer weight matrix, a bias as a row, one
  message-passing layer around the edges' outputs, and the read-out.
-/
import proofs.«146705_j37598143709437_1_alg».proof.Proof.Gen.KernelIdeal
import Idealize.ShloMosaic.PureOps.Ideal

noncomputable section

namespace Cert.KernelIdeal.HostOps

open Idealize.ShloMosaic Idealize.ShloMosaic.TcCoe Cert.KernelIdeal Cert.KernelIdeal.Gen

/-- One row of the edge list (row 0: source nodes, row 1: target nodes). -/
def srcRow (ei : (⟨S2x480000, .i32⟩ : BufTy).Contents (Elt Ideal)) : (⟨S480000, .i32⟩ : BufTy).Contents (Elt Ideal) :=
  shapeCast _ (extractStridedSlice S1x480000 ![0, 0] ei slices_S2x480000_S1x480000_0_0) shapeCasts_S1x480000_S480000
def dstRow (ei : (⟨S2x480000, .i32⟩ : BufTy).Contents (Elt Ideal)) : (⟨S480000, .i32⟩ : BufTy).Contents (Elt Ideal) :=
  shapeCast _ (extractStridedSlice S1x480000 ![1, 0] ei slices_S2x480000_S1x480000_1_0) shapeCasts_S1x480000_S480000

/-- The source nodes as gather indices: a negative index counts from the end. -/
def srcCol (s : (⟨S480000, .i32⟩ : BufTy).Contents (Elt Ideal)) : (⟨S480000x1, .i32⟩ : BufTy).Contents (Elt Ideal) :=
  broadcastInDim S480000x1 ![0] bcast_S480000_S480000x1_0
    (select (cmpi .slt s (broadcastInDim S480000 ![] bcast_S_S480000 (constantI S_ 32 0#32)))
      (addi s (broadcastInDim S480000 ![] bcast_S_S480000 (constantI S_ 32 30000#32))) s)

/-- Each edge's source-node feature row. -/
def gath (x : (⟨S30000x128, .f32⟩ : BufTy).Contents (Elt Ideal)) (s : (⟨S480000, .i32⟩ : BufTy).Contents (Elt Ideal)) :
    (⟨S480000x128, .f32⟩ : BufTy).Contents (Elt Ideal) :=
  Host.gather gather_S30000x128_S480000x1_S480000x128_1_0_n_n_0_1_1128 x (srcCol s)

/-- The feature part and the attribute part of a first-layer weight matrix; a bias as a row. -/
def wFeat (w : (⟨S144x128, .f32⟩ : BufTy).Contents (Elt Ideal)) : (⟨S128x128, .f32⟩ : BufTy).Contents (Elt Ideal) :=
  extractStridedSlice S128x128 ![0, 0] w slices_S144x128_S128x128_0_0
def wAttr (w : (⟨S144x128, .f32⟩ : BufTy).Contents (Elt Ideal)) : (⟨S16x128, .f32⟩ : BufTy).Contents (Elt Ideal) :=
  extractStridedSlice S16x128 ![128, 0] w slices_S144x128_S16x128_128_0
def asRow (b : (⟨S128, .f32⟩ : BufTy).Contents (Elt Ideal)) : (⟨S1x128, .f32⟩ : BufTy).Contents (Elt Ideal) :=
  shapeCast _ b shapeCasts_S128_S1x128

/-- One message-passing layer around the edges' outputs `mm`: summed into the target nodes' rows, the node features
    added back, rectified. -/
def layer (x : (⟨S30000x128, .f32⟩ : BufTy).Contents (Elt Ideal)) (d : (⟨S480000, .i32⟩ : BufTy).Contents (Elt Ideal))
    (mm : (⟨S480000x128, .f32⟩ : BufTy).Contents (Elt Ideal)) : (⟨S30000x128, .f32⟩ : BufTy).Contents (Elt Ideal) :=
  maximumf (addf (Host.scatterAdd scatter_S30000x128_S480000x1_S480000x128_1_0_0_1
      (broadcastInDim S30000x128 ![] bcast_S_S30000x128 (constant (F := Ideal) S_ .f32 0x00000000#32))
      (broadcastInDim S480000x1 ![0] bcast_S480000_S480000x1_0 d) mm) x)
    (broadcastInDim S30000x128 ![] bcast_S_S30000x128 (constant (F := Ideal) S_ .f32 0x00000000#32))

/-- The read-out: the mean node row through the final linear map. -/
def readout (h : (⟨S30000x128, .f32⟩ : BufTy).Contents (Elt Ideal)) (wl : (⟨S128x2, .f32⟩ : BufTy).Contents (Elt Ideal))
    (bl : (⟨S2, .f32⟩ : BufTy).Contents (Elt Ideal)) : (⟨S1x2, .f32⟩ : BufTy).Contents (Elt Ideal) :=
  addf (Host.dotGeneral (φ₂ := .f32) dot_S1x128_S128x2_S1x2_1_0_0_1_n_n none
      (Host.divf (broadcastInDim S1x128 ![1] bcast_S128_S1x128_1
          (Host.reduceAdd h (constant (F := Ideal) S_ .f32 0x00000000#32) reducesTo_S30000x128_S128_d0 h_S_))
        (broadcastInDim S1x128 ![] bcast_S_S1x128 (constant (F := Ideal) S_ .f32 0x46EA6000#32))) wl)
    (broadcastInDim S1x2 ![1] bcast_S2_S1x2_1 bl)

end Cert.KernelIdeal.HostOps

end
-- ==== Proof.HostValue.lean ====
/-
  The kernel program's result as ONE term of its arguments.

  @main is five stretches: host operations, the first launch, host operations, the second launch, host operations.
  Walking the buffer contents from boundary to boundary: the first stretch gathers the source nodes' feature rows and
  cuts the first-layer weights into their feature part and attribute part; the first launch leaves the perceptron of
  those arrays; the second stretch adds each edge's output into its target node's row, adds the node features back and
  rectifies — one message-passing layer — and prepares the second launch's arrays from that layer's result in the same
  way; the last stretch closes the second layer, averages the node rows and applies the final linear map.
-/
import proofs.«146705_j37598143709437_1_alg».proof.Proof.Region0
import proofs.«146705_j37598143709437_1_alg».proof.Proof.Region1
import proofs.«146705_j37598143709437_1_alg».proof.Proof.HostOps
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostOps

variable (m : (ℓ : Loc nD τ sig) → Buf (Elt Ideal) ℓ) (ρ : Dev nD → PrngReg)

/-! ## Region 0's entry: after the first host stretch -/

theorem w1_v1 (c : Dev nD) : W1 m ρ c (Proc.devRef .tc main_v1) = srcRow (m ((c.tc : Thread nD τ).loc main_arg1)) := by
  dsimp only [W1, hostOps0]; after_results; rfl
theorem w1_v3 (c : Dev nD) : W1 m ρ c (Proc.devRef .tc main_v3) = dstRow (m ((c.tc : Thread nD τ).loc main_arg1)) := by
  dsimp only [W1, hostOps0]; after_results; rfl
theorem w1_v10 (c : Dev nD) : W1 m ρ c (Proc.devRef .tc main_v10)
    = gath (m ((c.tc : Thread nD τ).loc main_arg0)) (srcRow (m ((c.tc : Thread nD τ).loc main_arg1))) := by
  dsimp only [W1, hostOps0]; after_results; rfl

theorem w1_v11 (c : Dev nD) : W1 m ρ c (Proc.devRef .tc main_v11) = wFeat (m ((c.tc : Thread nD τ).loc main_arg3)) := by
  dsimp only [W1, hostOps0]; after_results; rfl
theorem w1_v12 (c : Dev nD) : W1 m ρ c (Proc.devRef .tc main_v12) = wAttr (m ((c.tc : Thread nD τ).loc main_arg3)) := by
  dsimp only [W1, hostOps0]; after_results; rfl
theorem w1_v13 (c : Dev nD) : W1 m ρ c (Proc.devRef .tc main_v13) = asRow (m ((c.tc : Thread nD τ).loc main_arg4)) := by
  dsimp only [W1, hostOps0]; after_results; rfl
theorem w1_v14 (c : Dev nD) : W1 m ρ c (Proc.devRef .tc main_v14) = asRow (m ((c.tc : Thread nD τ).loc main_arg6)) := by
  dsimp only [W1, hostOps0]; after_results; rfl
theorem w1_arg0 (c : Dev nD) : W1 m ρ c (Proc.devRef .tc main_arg0) = m ((c.tc : Thread nD τ).loc main_arg0) := by
  dsimp only [W1, hostOps0]; after_results
theorem w1_arg2 (c : Dev nD) : W1 m ρ c (Proc.devRef .tc main_arg2) = m ((c.tc : Thread nD τ).loc main_arg2) := by
  dsimp only [W1, hostOps0]; after_results
theorem w1_arg5 (c : Dev nD) : W1 m ρ c (Proc.devRef .tc main_arg5) = m ((c.tc : Thread nD τ).loc main_arg5) := by
  dsimp only [W1, hostOps0]; after_results
theorem w1_arg7 (c : Dev nD) : W1 m ρ c (Proc.devRef .tc main_arg7) = m ((c.tc : Thread nD τ).loc main_arg7) := by
  dsimp only [W1, hostOps0]; after_results
theorem w1_arg8 (c : Dev nD) : W1 m ρ c (Proc.devRef .tc main_arg8) = m ((c.tc : Thread nD τ).loc main_arg8) := by
  dsimp only [W1, hostOps0]; after_results
theorem w1_arg9 (c : Dev nD) : W1 m ρ c (Proc.devRef .tc main_arg9) = m ((c.tc : Thread nD τ).loc main_arg9) := by
  dsimp only [W1, hostOps0]; after_results
theorem w1_arg10 (c : Dev nD) : W1 m ρ c (Proc.devRef .tc main_arg10) = m ((c.tc : Thread nD τ).loc main_arg10) := by
  dsimp only [W1, hostOps0]; after_results
theorem w1_arg11 (c : Dev nD) : W1 m ρ c (Proc.devRef .tc main_arg11) = m ((c.tc : Thread nD τ).loc main_arg11) := by
  dsimp only [W1, hostOps0]; after_results
theorem w1_arg12 (c : Dev nD) : W1 m ρ c (Proc.devRef .tc main_arg12) = m ((c.tc : Thread nD τ).loc main_arg12) := by
  dsimp only [W1, hostOps0]; after_results

/-! ## Region 0's exit: its result array is the perceptron of its entry arrays; every other buffer is as entered -/

/-- The edges' outputs in the first layer. -/
def M1 (c : Dev nD) : (⟨S480000x128, .f32⟩ : BufTy).Contents (Elt Ideal) :=
  EdgeMlp.mlp (gath (m ((c.tc : Thread nD τ).loc main_arg0)) (srcRow (m ((c.tc : Thread nD τ).loc main_arg1))))
    (m ((c.tc : Thread nD τ).loc main_arg2)) (wFeat (m ((c.tc : Thread nD τ).loc main_arg3))) (wAttr (m ((c.tc : Thread nD τ).loc main_arg3)))
    (asRow (m ((c.tc : Thread nD τ).loc main_arg4))) (m ((c.tc : Thread nD τ).loc main_arg5)) (asRow (m ((c.tc : Thread nD τ).loc main_arg6)))

theorem w2_v15 (c : Dev nD) : W2 m ρ c (Proc.devRef .tc main_v15) = M1 m c := by
  refine (W2_arr m ρ c 7).trans ?_
  rw [Region0.final (V1 m ρ) c]
  show EdgeMlp.mlp (W1 m ρ c (Proc.devRef .tc main_v10)) (W1 m ρ c (Proc.devRef .tc main_arg2)) (W1 m ρ c (Proc.devRef .tc main_v11))
    (W1 m ρ c (Proc.devRef .tc main_v12)) (W1 m ρ c (Proc.devRef .tc main_v13)) (W1 m ρ c (Proc.devRef .tc main_arg5))
    (W1 m ρ c (Proc.devRef .tc main_v14)) = _
  rw [w1_v10, w1_arg2, w1_v11, w1_v12, w1_v13, w1_arg5, w1_v14]
  rfl
theorem w2_v1 (c : Dev nD) : W2 m ρ c (Proc.devRef .tc main_v1) = srcRow (m ((c.tc : Thread nD τ).loc main_arg1)) :=
  (W2_of_ne m ρ c main_v1 (by decide)).trans (w1_v1 m ρ c)
theorem w2_v3 (c : Dev nD) : W2 m ρ c (Proc.devRef .tc main_v3) = dstRow (m ((c.tc : Thread nD τ).loc main_arg1)) :=
  (W2_of_ne m ρ c main_v3 (by decide)).trans (w1_v3 m ρ c)
theorem w2_arg0 (c : Dev nD) : W2 m ρ c (Proc.devRef .tc main_arg0) = m ((c.tc : Thread nD τ).loc main_arg0) :=
  (W2_of_ne m ρ c main_arg0 (by decide)).trans (w1_arg0 m ρ c)
theorem w2_arg2 (c : Dev nD) : W2 m ρ c (Proc.devRef .tc main_arg2) = m ((c.tc : Thread nD τ).loc main_arg2) :=
  ((W2_arr m ρ c 1).trans (((dat0 (V1 m ρ) c).arrAt_in 1 rfl _).trans (A_eq0 (V1 m ρ) c 1))).trans (w1_arg2 m ρ c)
theorem w2_arg7 (c : Dev nD) : W2 m ρ c (Proc.devRef .tc main_arg7) = m ((c.tc : Thread nD τ).loc main_arg7) :=
  (W2_of_ne m ρ c main_arg7 (by decide)).trans (w1_arg7 m ρ c)
theorem w2_arg8 (c : Dev nD) : W2 m ρ c (Proc.devRef .tc main_arg8) = m ((c.tc : Thread nD τ).loc main_arg8) :=
  (W2_of_ne m ρ c main_arg8 (by decide)).trans (w1_arg8 m ρ c)
theorem w2_arg9 (c : Dev nD) : W2 m ρ c (Proc.devRef .tc main_arg9) = m ((c.tc : Thread nD τ).loc main_arg9) :=
  (W2_of_ne m ρ c main_arg9 (by decide)).trans (w1_arg9 m ρ c)
theorem w2_arg10 (c : Dev nD) : W2 m ρ c (Proc.devRef .tc main_arg10) = m ((c.tc : Thread nD τ).loc main_arg10) :=
  (W2_of_ne m ρ c main_arg10 (by decide)).trans (w1_arg10 m ρ c)
theorem w2_arg11 (c : Dev nD) : W2 m ρ c (Proc.devRef .tc main_arg11) = m ((c.tc : Thread nD τ).loc main_arg11) :=
  (W2_of_ne m ρ c main_arg11 (by decide)).trans (w1_arg11 m ρ c)
theorem w2_arg12 (c : Dev nD) : W2 m ρ c (Proc.devRef .tc main_arg12) = m ((c.tc : Thread nD τ).loc main_arg12) :=
  (W2_of_ne m ρ c main_arg12 (by decide)).trans (w1_arg12 m ρ c)

/-! ## Region 1's entry: after the second host stretch -/

/-- The node rows after the first layer. -/
def H1 (c : Dev nD) : (⟨S30000x128, .f32⟩ : BufTy).Contents (Elt Ideal) :=
  layer (m ((c.tc : Thread nD τ).loc main_arg0)) (dstRow (m ((c.tc : Thread nD τ).loc main_arg1))) (M1 m c)

theorem w3_v21 (c : Dev nD) : W3 m ρ c (Proc.devRef .tc main_v21) = H1 m c := by
  dsimp only [W3, hostOps1]; after_results
  rw [w2_v15, w2_v3, w2_arg0]
  rfl

theorem w3_v28 (c : Dev nD) : W3 m ρ c (Proc.devRef .tc main_v28)
    = gath (H1 m c) (srcRow (m ((c.tc : Thread nD τ).loc main_arg1))) := by
  dsimp only [W3, hostOps1]; after_results_simp
  rw [w2_v15, w2_v3, w2_arg0, w2_v1]
  rfl
theorem w3_v29 (c : Dev nD) : W3 m ρ c (Proc.devRef .tc main_v29) = wFeat (m ((c.tc : Thread nD τ).loc main_arg7)) := by
  dsimp only [W3, hostOps1]; after_results
  rw [w2_arg7]; rfl
theorem w3_v30 (c : Dev nD) : W3 m ρ c (Proc.devRef .tc main_v30) = wAttr (m ((c.tc : Thread nD τ).loc main_arg7)) := by
  dsimp only [W3, hostOps1]; after_results
  rw [w2_arg7]; rfl
theorem w3_v31 (c : Dev nD) : W3 m ρ c (Proc.devRef .tc main_v31) = asRow (m ((c.tc : Thread nD τ).loc main_arg8)) := by
  dsimp only [W3, hostOps1]; after_results
  rw [w2_arg8]; rfl
theorem w3_v32 (c : Dev nD) : W3 m ρ c (Proc.devRef .tc main_v32) = asRow (m ((c.tc : Thread nD τ).loc main_arg10)) := by
  dsimp only [W3, hostOps1]; after_results
  rw [w2_arg10]; rfl
theorem w3_arg2 (c : Dev nD) : W3 m ρ c (Proc.devRef .tc main_arg2) = m ((c.tc : Thread nD τ).loc main_arg2) := by
  dsimp only [W3, hostOps1]; after_results
  exact w2_arg2 m ρ c
theorem w3_arg9 (c : Dev nD) : W3 m ρ c (Proc.devRef .tc main_arg9) = m ((c.tc : Thread nD τ).loc main_arg9) := by
  dsimp only [W3, hostOps1]; after_results
  exact w2_arg9 m ρ c
theorem w3_v3 (c : Dev nD) : W3 m ρ c (Proc.devRef .tc main_v3) = dstRow (m ((c.tc : Thread nD τ).loc main_arg1)) := by
  dsimp only [W3, hostOps1]; after_results
  exact w2_v3 m ρ c
theorem w3_arg11 (c : Dev nD) : W3 m ρ c (Proc.devRef .tc main_arg11) = m ((c.tc : Thread nD τ).loc main_arg11) := by
  dsimp only [W3, hostOps1]; after_results
  exact w2_arg11 m ρ c
theorem w3_arg12 (c : Dev nD) : W3 m ρ c (Proc.devRef .tc main_arg12) = m ((c.tc : Thread nD τ).loc main_arg12) := by
  dsimp only [W3, hostOps1]; after_results
  exact w2_arg12 m ρ c

/-! ## Region 1's exit -/

/-- The edges' outputs in the second layer. -/
def M2 (c : Dev nD) : (⟨S480000x128, .f32⟩ : BufTy).Contents (Elt Ideal) :=
  EdgeMlp.mlp (gath (H1 m c) (srcRow (m ((c.tc : Thread nD τ).loc main_arg1))))
    (m ((c.tc : Thread nD τ).loc main_arg2)) (wFeat (m ((c.tc : Thread nD τ).loc main_arg7))) (wAttr (m ((c.tc : Thread nD τ).loc main_arg7)))
    (asRow (m ((c.tc : Thread nD τ).loc main_arg8))) (m ((c.tc : Thread nD τ).loc main_arg9)) (asRow (m ((c.tc : Thread nD τ).loc main_arg10)))

theorem w4_v33 (c : Dev nD) : W4 m ρ c (Proc.devRef .tc main_v33) = M2 m c := by
  refine (W4_arr m ρ c 7).trans ?_
  rw [Region1.final (V3 m ρ) c]
  show EdgeMlp.mlp (W3 m ρ c (Proc.devRef .tc main_v28)) (W3 m ρ c (Proc.devRef .tc main_arg2)) (W3 m ρ c (Proc.devRef .tc main_v29))
    (W3 m ρ c (Proc.devRef .tc main_v30)) (W3 m ρ c (Proc.devRef .tc main_v31)) (W3 m ρ c (Proc.devRef .tc main_arg9))
    (W3 m ρ c (Proc.devRef .tc main_v32)) = _
  rw [w3_v28, w3_arg2, w3_v29, w3_v30, w3_v31, w3_arg9, w3_v32]
  rfl
theorem w4_v3 (c : Dev nD) : W4 m ρ c (Proc.devRef .tc main_v3) = dstRow (m ((c.tc : Thread nD τ).loc main_arg1)) :=
  (W4_of_ne m ρ c main_v3 (by decide)).trans (w3_v3 m ρ c)
theorem w4_v21 (c : Dev nD) : W4 m ρ c (Proc.devRef .tc main_v21) = H1 m c :=
  (W4_of_ne m ρ c main_v21 (by decide)).trans (w3_v21 m ρ c)
theorem w4_arg11 (c : Dev nD) : W4 m ρ c (Proc.devRef .tc main_arg11) = m ((c.tc : Thread nD τ).loc main_arg11) :=
  (W4_of_ne m ρ c main_arg11 (by decide)).trans (w3_arg11 m ρ c)
theorem w4_arg12 (c : Dev nD) : W4 m ρ c (Proc.devRef .tc main_arg12) = m ((c.tc : Thread nD τ).loc main_arg12) :=
  (W4_of_ne m ρ c main_arg12 (by decide)).trans (w3_arg12 m ρ c)

/-! ## The result: after the last host stretch -/

theorem w5_v46 (c : Dev nD) : W5 m ρ c (Proc.devRef .tc main_v46)
    = readout (layer (H1 m c) (dstRow (m ((c.tc : Thread nD τ).loc main_arg1))) (M2 m c))
        (m ((c.tc : Thread nD τ).loc main_arg11)) (m ((c.tc : Thread nD τ).loc main_arg12)) := by
  dsimp only [W5, hostOps2]; after_results_simp
  rw [w4_v33, w4_v3, w4_v21, w4_arg11, w4_arg12]
  rfl

end Cert.KernelIdeal.HostValue

end
-- ==== Proof.Net.lean ====
/-
  The whole network as one function of its thirteen arrays, with the edge perceptron left as a parameter: two
  message-passing layers — gather the source rows, apply the perceptron to every edge, sum into the target rows, add
  the node features back, rectify — and the read-out. The kernel's program and the reference are both this function;
  they differ only in the perceptron they put in.
-/
import proofs.«146705_j37598143709437_1_alg».proof.Proof.HostOps
import proofs.«146705_j37598143709437_1_alg».proof.Proof.EdgeMlp

noncomputable section

namespace Cert.KernelIdeal.Net

open Idealize.ShloMosaic Idealize.ShloMosaic.TcCoe Cert.KernelIdeal Cert.KernelIdeal.Gen Cert.KernelIdeal.HostOps

/-- An edge perceptron: features, attributes, first-layer weights and bias, second-layer weights and bias. -/
abbrev Mlp : Type := (⟨S480000x128, .f32⟩ : BufTy).Contents (Elt Ideal) → (⟨S480000x16, .f32⟩ : BufTy).Contents (Elt Ideal) → (⟨S144x128, .f32⟩ : BufTy).Contents (Elt Ideal) → (⟨S128, .f32⟩ : BufTy).Contents (Elt Ideal)
  → (⟨S128x128, .f32⟩ : BufTy).Contents (Elt Ideal) → (⟨S128, .f32⟩ : BufTy).Contents (Elt Ideal) → (⟨S480000x128, .f32⟩ : BufTy).Contents (Elt Ideal)

/-- One message-passing layer. -/
def mpnn (f : Mlp) (x : (⟨S30000x128, .f32⟩ : BufTy).Contents (Elt Ideal)) (ei : (⟨S2x480000, .i32⟩ : BufTy).Contents (Elt Ideal)) (ea : (⟨S480000x16, .f32⟩ : BufTy).Contents (Elt Ideal))
    (w1 : (⟨S144x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) :
    (⟨S30000x128, .f32⟩ : BufTy).Contents (Elt Ideal) :=
  layer x (dstRow ei) (f (gath x (srcRow ei)) ea w1 b1 w2 b2)

/-- Two layers and the read-out. -/
def net (f : Mlp) (x : (⟨S30000x128, .f32⟩ : BufTy).Contents (Elt Ideal)) (ei : (⟨S2x480000, .i32⟩ : BufTy).Contents (Elt Ideal)) (ea : (⟨S480000x16, .f32⟩ : BufTy).Contents (Elt Ideal))
    (w1a : (⟨S144x128, .f32⟩ : BufTy).Contents (Elt Ideal)) (b1a : (⟨S128, .f32⟩ : BufTy).Contents (Elt Ideal)) (w2a : (⟨S128x128, .f32⟩ : BufTy).Contents (Elt Ideal)) (b2a : (⟨S128, .f32⟩ : BufTy).Contents (Elt Ideal))
    (w1b : (⟨S144x128, .f32⟩ : BufTy).Contents (Elt Ideal)) (b1b : (⟨S128, .f32⟩ : BufTy).Contents (Elt Ideal)) (w2b : (⟨S128x128, .f32⟩ : BufTy).Contents (Elt Ideal)) (b2b : (⟨S128, .f32⟩ : BufTy).Contents (Elt Ideal))
    (wl : (⟨S128x2, .f32⟩ : BufTy).Contents (Elt Ideal)) (bl : (⟨S2, .f32⟩ : BufTy).Contents (Elt Ideal)) : (⟨S1x2, .f32⟩ : BufTy).Contents (Elt Ideal) :=
  readout (mpnn f (mpnn f x ei ea w1a b1a w2a b2a) ei ea w1b b1b w2b b2b) wl bl

/-- The kernel's perceptron: the first-layer weights cut into their feature part and attribute part. -/
def kerMlp : Mlp := fun xj ea w1 b1 w2 b2 => EdgeMlp.mlp xj ea (wFeat w1) (wAttr w1) (asRow b1) w2 (asRow b2)

end Cert.KernelIdeal.Net

end
-- ==== Proof.RefMlp.lean ====
/-
  The reference's edge perceptron is the kernel's.

  The reference joins each edge's feature row and attribute row into one row of 144 numbers and multiplies by the
  whole first-layer weight matrix; the kernel multiplies the feature row by the matrix's first 128 rows, the attribute
  row by its last 16, and adds. Entry by entry the first is a sum of 144 products, and that sum splits after its
  128th term into the kernel's two sums — on the extended reals too, where addition is still commutative and
  associative. The bias, the rectification and the second product are the same on both sides.
-/
import proofs.«146705_j37598143709437_1_alg».proof.Proof.Gen.ReferenceIdeal.Read
import proofs.«146705_j37598143709437_1_alg».proof.Proof.HostOps
import proofs.«146705_j37598143709437_1_alg».proof.Proof.EdgeMlp
import Idealize.ShloMosaic.Lib.ValueIdx
import Idealize.ShloMosaic.Lib.Pipeline.Value
import Idealize.ShloMosaic.PureOps.Ideal.Laws

noncomputable section

namespace Cert.ReferenceIdeal.RefMlp

open Idealize.ShloMosaic Idealize.ShloMosaic.TcCoe Cert.ReferenceIdeal Cert.ReferenceIdeal.Gen
open Idealize.ShloMosaic.ValueIdx

/-- The reference's perceptron over all the edges, as its program spells it. -/
def refMlp (xj : (⟨S480000x128, .f32⟩ : BufTy).Contents (Elt Ideal)) (ea : (⟨S480000x16, .f32⟩ : BufTy).Contents (Elt Ideal))
    (w1 : (⟨S144x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S480000x128, .f32⟩ : BufTy).Contents (Elt Ideal) :=
  addf (Host.dotGeneral (φ₁ := .f32) (φ₂ := .f32) dot_S480000x128_S128x128_S480000x128_1_0_0_1_n_n none
      (maximumf (addf (Host.dotGeneral (φ₁ := .f32) (φ₂ := .f32) dot_S480000x144_S144x128_S480000x128_1_0_0_1_n_n none
            (concatenate S480000x144 1 [⟨S480000x128, xj⟩, ⟨S480000x16, ea⟩] concatenates_S480000x128_S480000x16_S480000x144_d1) w1)
          (broadcastInDim S480000x128 ![0, 1] bcast_S1x128_S480000x128_0_1 (broadcastInDim S1x128 ![1] bcast_S128_S1x128_1 b1)))
        (broadcastInDim S480000x128 ![] bcast_S_S480000x128 (constant (F := Ideal) S_ .f32 0x00000000#32))) w2)
    (broadcastInDim S480000x128 ![0, 1] bcast_S1x128_S480000x128_0_1 (broadcastInDim S1x128 ![1] bcast_S128_S1x128_1 b2))

/-! ## The reference's two products at an entry -/

theorem dg144_apply (l : FVec Ideal S480000x144 .f32) (r : FVec Ideal S144x128 .f32) (p : Fin 480000) (q : Fin 128) :
    Host.dotGeneral dot_S480000x144_S144x128_S480000x128_1_0_0_1_n_n none l r (ix2 p q) = ∑ k : Fin 144, l (ix2 p k) * r (ix2 k q) := by
  simp only [Host.dotGeneral]
  rw [Ideal.dotGeneral_apply, ← Equiv.sum_comp (ValueIdx.contrEquiv1 dot_S480000x144_S144x128_S480000x128_1_0_0_1_n_n 144 rfl rfl).symm]
  refine Finset.sum_congr rfl fun k _ => ?_
  have hk := ValueIdx.contrEquiv1_symm_val dot_S480000x144_S144x128_S480000x128_1_0_0_1_n_n 144 rfl rfl k
  have el : dot_S480000x144_S144x128_S480000x128_1_0_0_1_n_n.lhsIdx (ix2 p q) ((ValueIdx.contrEquiv1 dot_S480000x144_S144x128_S480000x128_1_0_0_1_n_n 144 rfl rfl).symm k) = ix2 p k := funext fun a => Fin.ext (by
    match a with
    | ⟨0, _⟩ => exact Read.lhs_main_v12_0 _ _
    | ⟨1, _⟩ => exact (Read.lhs_main_v12_1 _ _).trans hk)
  have er : dot_S480000x144_S144x128_S480000x128_1_0_0_1_n_n.rhsIdx (ix2 p q) ((ValueIdx.contrEquiv1 dot_S480000x144_S144x128_S480000x128_1_0_0_1_n_n 144 rfl rfl).symm k) = ix2 k q := funext fun a => Fin.ext (by
    match a with
    | ⟨0, _⟩ => exact (Read.rhs_main_v12_0 _ _).trans hk
    | ⟨1, _⟩ => exact Read.rhs_main_v12_1 _ _)
  rw [el, er]

theorem dg128_apply (l : FVec Ideal S480000x128 .f32) (r : FVec Ideal S128x128 .f32) (p : Fin 480000) (q : Fin 128) :
    Host.dotGeneral dot_S480000x128_S128x128_S480000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S480000x128_S128x128_S480000x128_1_0_0_1_n_n 128 rfl rfl).symm]
  refine Finset.sum_congr rfl fun k _ => ?_
  have hk := ValueIdx.contrEquiv1_symm_val dot_S480000x128_S128x128_S480000x128_1_0_0_1_n_n 128 rfl rfl k
  have el : dot_S480000x128_S128x128_S480000x128_1_0_0_1_n_n.lhsIdx (ix2 p q) ((ValueIdx.contrEquiv1 dot_S480000x128_S128x128_S480000x128_1_0_0_1_n_n 128 rfl rfl).symm k) = ix2 p k := funext fun a => Fin.ext (by
    match a with
    | ⟨0, _⟩ => exact Read.lhs_main_v18_0 _ _
    | ⟨1, _⟩ => exact (Read.lhs_main_v18_1 _ _).trans hk)
  have er : dot_S480000x128_S128x128_S480000x128_1_0_0_1_n_n.rhsIdx (ix2 p q) ((ValueIdx.contrEquiv1 dot_S480000x128_S128x128_S480000x128_1_0_0_1_n_n 128 rfl rfl).symm k) = ix2 k q := funext fun a => Fin.ext (by
    match a with
    | ⟨0, _⟩ => exact (Read.rhs_main_v18_0 _ _).trans hk
    | ⟨1, _⟩ => exact Read.rhs_main_v18_1 _ _)
  rw [el, er]

/-! ## The joined row: its first 128 entries are the feature row, its last 16 the attribute row -/

theorem joined_left (xj : S480000x128.Idx → EReal) (ea : S480000x16.Idx → EReal) (p : Fin 480000) (a : Fin 128) :
    concatenate S480000x144 1 [⟨S480000x128, xj⟩, ⟨S480000x16, ea⟩] concatenates_S480000x128_S480000x16_S480000x144_d1
      (ix2 p (Fin.castAdd 16 a)) = xj (ix2 p a) :=
  concatenate_pair_apply_left 1 xj ea concatenates_S480000x128_S480000x16_S480000x144_d1 (ix2 p (Fin.castAdd 16 a)) rfl (ix2 p a)
    (fun b => by match b with | ⟨0, _⟩ => rfl | ⟨1, _⟩ => rfl)

theorem joined_right (xj : S480000x128.Idx → EReal) (ea : S480000x16.Idx → EReal) (p : Fin 480000) (a : Fin 16) :
    concatenate S480000x144 1 [⟨S480000x128, xj⟩, ⟨S480000x16, ea⟩] concatenates_S480000x128_S480000x16_S480000x144_d1
      (ix2 p (Fin.natAdd 128 a)) = ea (ix2 p a) :=
  concatenate_pair_apply_right 1 xj ea concatenates_S480000x128_S480000x16_S480000x144_d1 (ix2 p (Fin.natAdd 128 a)) rfl rfl (ix2 p a)
    (fun b hb => by match b with | ⟨0, _⟩ => rfl | ⟨1, _⟩ => exact absurd rfl hb)
    (by show a.val + 128 = 128 + a.val; omega)

/-! ## The bias and the zero the rectifier compares with, at an entry -/

theorem bias_apply (b : (⟨S128, .f32⟩ : BufTy).Contents (Elt Ideal)) (p : Fin 480000) (k : Fin 128) :
    broadcastInDim S480000x128 ![0, 1] bcast_S1x128_S480000x128_0_1 (broadcastInDim S1x128 ![1] bcast_S128_S1x128_1 b) (ix2 p k)
      = b (ix1 k) := by
  refine (broadcastInDim_apply _ bcast_S1x128_S480000x128_0_1 _ (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])).trans ?_
  exact broadcastInDim_apply _ bcast_S128_S1x128_1 b (ix2 0 k) (ix1 k) (fun a => match a with
    | ⟨0, _⟩ => by show k.val = if (128 : Nat) = 1 then 0 else k.val; rw [if_neg (by decide)])

theorem zero_apply (p : Fin 480000) (k : Fin 128) :
    broadcastInDim S480000x128 ![] bcast_S_S480000x128 (constant (F := Ideal) S_ .f32 0x00000000#32) (ix2 p k) = (0 : EReal) := by
  refine (broadcastInDim_apply _ bcast_S_S480000x128 _ (ix2 p k) ix0 (fun a => a.elim0)).trans ?_
  rw [constant_apply, Ideal.ofBits_zero_f32]

/-! ## The kernel's host-side pieces at an entry -/

theorem asRow_apply (b : (⟨S128, .f32⟩ : BufTy).Contents (Elt Ideal)) (k : Fin 128) :
    Cert.KernelIdeal.HostOps.asRow b (ix2 0 k) = b (ix1 k) := by
  unfold Cert.KernelIdeal.HostOps.asRow
  exact shapeCast_apply b _ (ix2 0 k) (ix1 k) (by
    rw [Shape.rowMajor_val_one, Shape.rowMajor_val_two]
    show k.val = 0 * 128 + k.val; omega)

theorem wFeat_apply (w : (⟨S144x128, .f32⟩ : BufTy).Contents (Elt Ideal)) (a k : Fin 128) :
    Cert.KernelIdeal.HostOps.wFeat w (ix2 a k) = w (ix2 (Fin.castAdd 16 a) k) := by
  unfold Cert.KernelIdeal.HostOps.wFeat
  exact extractStridedSlice_apply ![0, 0] w _ (ix2 a k) (ix2 (Fin.castAdd 16 a) k) (fun d => match d with
    | ⟨0, _⟩ => by show a.val = 0 + a.val; omega
    | ⟨1, _⟩ => by show k.val = 0 + k.val; omega)

theorem wAttr_apply (w : (⟨S144x128, .f32⟩ : BufTy).Contents (Elt Ideal)) (a : Fin 16) (k : Fin 128) :
    Cert.KernelIdeal.HostOps.wAttr w (ix2 a k) = w (ix2 (Fin.natAdd 128 a) k) := by
  unfold Cert.KernelIdeal.HostOps.wAttr
  exact extractStridedSlice_apply ![128, 0] w _ (ix2 a k) (ix2 (Fin.natAdd 128 a) k) (fun d => match d with
    | ⟨0, _⟩ => by show 128 + a.val = 128 + a.val; rfl
    | ⟨1, _⟩ => by show k.val = 0 + k.val; omega)

/-! ## The two perceptrons are one function -/

theorem refMlp_eq (xj : (⟨S480000x128, .f32⟩ : BufTy).Contents (Elt Ideal)) (ea : (⟨S480000x16, .f32⟩ : BufTy).Contents (Elt Ideal))
    (w1 : (⟨S144x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    refMlp xj ea w1 b1 w2 b2
      = Cert.KernelIdeal.EdgeMlp.mlp xj ea (Cert.KernelIdeal.HostOps.wFeat w1) (Cert.KernelIdeal.HostOps.wAttr w1) (Cert.KernelIdeal.HostOps.asRow b1) w2 (Cert.KernelIdeal.HostOps.asRow b2) := by
  funext i
  obtain ⟨p, q, rfl⟩ : ∃ (p : Fin 480000) (q : Fin 128), i = ix2 p q := ⟨i 0, i 1, eq_ix2 i⟩
  unfold refMlp
  show _ = (∑ k : Fin 128, max (((∑ a : Fin 128, xj (ix2 p a) * Cert.KernelIdeal.HostOps.wFeat w1 (ix2 a k))
      + ∑ a : Fin 16, ea (ix2 p a) * Cert.KernelIdeal.HostOps.wAttr w1 (ix2 a k)) + Cert.KernelIdeal.HostOps.asRow b1 (ix2 0 k)) 0 * w2 (ix2 k q))
    + Cert.KernelIdeal.HostOps.asRow b2 (ix2 0 q)
  rw [addf_apply, dg128_apply, bias_apply, asRow_apply]
  refine congrArg (· + b2 (ix1 q)) (Finset.sum_congr rfl fun k _ => ?_)
  rw [maximumf_apply, addf_apply, dg144_apply, bias_apply, zero_apply, asRow_apply]
  have hsum : (∑ j : Fin 144, concatenate S480000x144 1 [⟨S480000x128, xj⟩, ⟨S480000x16, ea⟩] concatenates_S480000x128_S480000x16_S480000x144_d1 (ix2 p j) * w1 (ix2 j k))
      = (∑ a : Fin 128, xj (ix2 p a) * Cert.KernelIdeal.HostOps.wFeat w1 (ix2 a k)) + ∑ a : Fin 16, ea (ix2 p a) * Cert.KernelIdeal.HostOps.wAttr w1 (ix2 a k) := by
    refine (Fin.sum_univ_add (fun j : Fin (128 + 16) => concatenate S480000x144 1 [⟨S480000x128, xj⟩, ⟨S480000x16, ea⟩] concatenates_S480000x128_S480000x16_S480000x144_d1 (ix2 p j) * w1 (ix2 j k))).trans ?_
    simp only [joined_left, joined_right, wFeat_apply, wAttr_apply]
  rw [hsum]

end Cert.ReferenceIdeal.RefMlp

end
-- ==== Proof.lean ====
/-
  A two-layer message-passing network with a mean read-out: the kernel's program against its reference, over the
  extended reals.

  Both programs gather each edge's source-node row, put every edge through a two-layer perceptron, sum the edges'
  outputs into their target nodes' rows, add the node features back and rectify; twice; then average the node rows and
  apply a linear map. The host operations around the perceptron are the same on both sides. The perceptron differs in
  spelling only: the reference multiplies the joined row [features, attributes] (144 numbers) by the whole first-layer
  matrix, the kernel multiplies the features by the matrix's first 128 rows and the attributes by its last 16 and adds.
  A sum of 144 products split after its 128th term is the same extended real, so the two perceptrons are one function
  of their arrays, and so are the two networks. No finiteness is needed: only commutativity and associativity of
  addition are used. The kernel's launches run the perceptron 4000 edges at a time over 120 blocks that tile the edge
  axis, which changes nothing in the value. The idealization pass rewrote nothing, so `preserves` asks nothing.
-/
import proofs.«146705_j37598143709437_1_alg».proof.Defs
import proofs.«146705_j37598143709437_1_alg».proof.Proof.Gen.Kernel
import proofs.«146705_j37598143709437_1_alg».proof.Proof.Gen.Kernel.Skeleton
import proofs.«146705_j37598143709437_1_alg».proof.Proof.Gen.Kernel.Launch
import proofs.«146705_j37598143709437_1_alg».proof.Proof.Gen.Kernel.Points
import proofs.«146705_j37598143709437_1_alg».proof.Proof.Gen.Kernel.Frame
import proofs.«146705_j37598143709437_1_alg».proof.Proof.Gen.KernelIdeal
import proofs.«146705_j37598143709437_1_alg».proof.Proof.Gen.KernelIdeal.Skeleton
import proofs.«146705_j37598143709437_1_alg».proof.Proof.Gen.KernelIdeal.Launch
import proofs.«146705_j37598143709437_1_alg».proof.Proof.Gen.KernelIdeal.Points
import proofs.«146705_j37598143709437_1_alg».proof.Proof.Gen.KernelIdeal.Frame
import proofs.«146705_j37598143709437_1_alg».proof.Proof.Gen.ReferenceIdeal
import proofs.«146705_j37598143709437_1_alg».proof.Proof.Gen.Pre_finite_inputs
import proofs.«146705_j37598143709437_1_alg».proof.Proof.Gen.ReferenceIdeal.Run
import proofs.«146705_j37598143709437_1_alg».proof.Proof.Gen.ReferenceIdeal.Read
import proofs.«146705_j37598143709437_1_alg».proof.Proof.RunValue
import proofs.«146705_j37598143709437_1_alg».proof.Proof.HostValue
import proofs.«146705_j37598143709437_1_alg».proof.Proof.Net
import proofs.«146705_j37598143709437_1_alg».proof.Proof.RefMlp
import Idealize.ShloMosaic.Adequacy
import Idealize.ShloMosaic.Init

noncomputable section

namespace Cert.Proof

open Idealize.ShloMosaic Idealize.ShloMosaic.TcCoe Idealize.SL.Sem

/-- The reference's perceptron is the kernel's, as functions of the six arrays. -/
theorem mlp_eq : Cert.ReferenceIdeal.RefMlp.refMlp = Cert.KernelIdeal.Net.kerMlp := by
  funext xj ea w1 b1 w2 b2
  exact Cert.ReferenceIdeal.RefMlp.refMlp_eq xj ea w1 b1 w2 b2

/-- The kernel program's result buffer holds the network of its argument arrays, with the kernel's perceptron. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c (Proc.devRef .tc Cert.KernelIdeal.main_v46)
      = Cert.KernelIdeal.Net.net Cert.KernelIdeal.Net.kerMlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) :=
  (Cert.KernelIdeal.HostValue.w5_v46 m ρ c).trans rfl

/-- The reference's result term is the network of its argument arrays, with the reference's perceptron. -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 (F := Ideal) m' c
      = Cert.KernelIdeal.Net.net Cert.ReferenceIdeal.RefMlp.refMlp
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) := by
  unfold Cert.ReferenceIdeal.Value.res_main_v58
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) argument arrays in their result buffers. -/
theorem algebraic : Cert.algebraic_KernelIdeal_ReferenceIdeal := by
  intro m ρ m' ρ' _ hagree
  refine ⟨fun c => Cert.KernelIdeal.Net.net Cert.KernelIdeal.Net.kerMlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (kernel_value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [reference_value m' c, e0, e1, e2, e3, e4, e5, e6, e7, e8, e9, e10, e11, e12, mlp_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
